-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2x3 : Shape := ⟨3, ![1024, 2, 3]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2x3 : S_.BroadcastsInDim S1024x2x3 (![] : Fin 0 → Fin S1024x2x3.rank)
  reducesTo_S1024x2x3_S_d0_1_2 : S1024x2x3.ReducesTo [0, 1, 2] S_

variable [Facts]

def fn {F : FTy → Type} [FloatOps F] (main_arg0 : FVec F S16384x1024 .f32) (main_arg1 : FVec F S1024x2x3 .f32) (main_arg2 : FVec F S1024x2x3 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2x3 .f32 := Host.absf main_arg1
  let main_cst_0 : FVec F S_ .f32 := constant S_ .f32 0x7F800000#32
  let main_v5 : FVec F S1024x2x3 .f32 := broadcastInDim S1024x2x3 ![] bcast_S_S1024x2x3 main_cst_0
  let main_v6 : IVec S1024x2x3 1 := cmpf .olt main_v4 main_v5
  let main_c_1 : IVec S_ 1 := constantI S_ 1 1#1
  let main_v7 : IVec S_ 1 := (fun x v => Host.reduce IntOp.andi x v reducesTo_S1024x2x3_S_d0_1_2 h_S_) main_v6 main_c_1
  let main_v8 : IVec S_ 1 := andi main_v3 main_v7
  let main_v9 : FVec F S1024x2x3 .f32 := Host.absf main_arg2
  let main_cst_2 : FVec F S_ .f32 := constant S_ .f32 0x7F800000#32
  let main_v10 : FVec F S1024x2x3 .f32 := broadcastInDim S1024x2x3 ![] bcast_S_S1024x2x3 main_cst_2
  let main_v11 : IVec S1024x2x3 1 := cmpf .olt main_v9 main_v10
  let main_c_3 : IVec S_ 1 := constantI S_ 1 1#1
  let main_v12 : IVec S_ 1 := (fun x v => Host.reduce IntOp.andi x v reducesTo_S1024x2x3_S_d0_1_2 h_S_) main_v11 main_c_3
  let main_v13 : IVec S_ 1 := andi main_v8 main_v12
  main_v13
-- ==== Kernel.lean ====
abbrev S16384x1024 : Shape := ⟨2, ![16384, 1024]⟩
abbrev S1024x2x3 : Shape := ⟨3, ![1024, 2, 3]⟩
abbrev S2x3x1024 : Shape := ⟨3, ![2, 3, 1024]⟩
abbrev S6x1024 : Shape := ⟨2, ![6, 1024]⟩
abbrev S1024x1024 : Shape := ⟨2, ![1024, 1024]⟩
abbrev S1x1024 : Shape := ⟨2, ![1, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2x3, .f32⟩
  | .hbm, ⟨2, _⟩ => ⟨S1024x2x3, .f32⟩
  | .hbm, ⟨3, _⟩ => ⟨S2x3x1024, .f32⟩
  | .hbm, ⟨4, _⟩ => ⟨S6x1024, .f32⟩
  | .hbm, ⟨5, _⟩ => ⟨S2x3x1024, .f32⟩
  | .hbm, ⟨6, _⟩ => ⟨S6x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S6x1024, .f32⟩
  | .local _ .vmem, ⟨3, _⟩ => ⟨S6x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x2x3_S2x3x1024_1_2_0 : S1024x2x3.Transposes [1, 2, 0] S2x3x1024
  shapeCasts_S2x3x1024_S6x1024 : S2x3x1024.ShapeCasts S6x1024
  inb_S1024x1024_S1024x1024_0_0 : ∀ a, (![0, 0] : Fin 2 → Nat) a + S1024x1024.size a ≤ S1024x1024.size a
  h_S1024x1024 : 0 < S1024x1024.numel
  inb_S6x1024_S6x1024_0_0 : ∀ a, (![0, 0] : Fin 2 → Nat) a + S6x1024.size a ≤ S6x1024.size a
  h_S6x1024 : 0 < S6x1024.numel
  shapeCasts_S6x1024_S6x1024 : S6x1024.ShapeCasts S6x1024
  slices_S6x1024_o0_0_S1x1024 : S6x1024.Slices ![0, 0] S1x1024
  broadcasts_S1x1024_S1024x1024 : S1x1024.Broadcasts S1024x1024
  slices_S6x1024_o1_0_S1x1024 : S6x1024.Slices ![1, 0] S1x1024
  slices_S6x1024_o2_0_S1x1024 : S6x1024.Slices ![2, 0] S1x1024
  slices_S6x1024_o3_0_S1x1024 : S6x1024.Slices ![3, 0] S1x1024
  slices_S6x1024_o4_0_S1x1024 : S6x1024.Slices ![4, 0] S1x1024
  slices_S6x1024_o5_0_S1x1024 : S6x1024.Slices ![5, 0] S1x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x1024.size a ≤ S6x1024.size a
  hwx0_1 : ∀ i : grid0.Coords, EltTy.bits .f32 = 32 ∨ (Rect.block (s := S6x1024) S6x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x1024.size a ≤ S6x1024.size a
  hwx0_2 : ∀ i : grid0.Coords, EltTy.bits .f32 = 32 ∨ (Rect.block (s := S6x1024) S6x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S6x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2x3 : Shape := ⟨3, ![1024, 2, 3]⟩
abbrev S16384x1024x1x1 : Shape := ⟨4, ![16384, 1024, 1, 1]⟩
abbrev S1x1024x2x3 : Shape := ⟨4, ![1, 1024, 2, 3]⟩
abbrev S16384x1024x2x3 : Shape := ⟨4, ![16384, 1024, 2, 3]⟩
abbrev S_ : Shape := ⟨0, ![]⟩
abbrev S16384x1024x2 : Shape := ⟨3, ![16384, 1024, 2]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2x3, .f32⟩
  | .hbm, ⟨2, _⟩ => ⟨S1024x2x3, .f32⟩
  | .hbm, ⟨3, _⟩ => ⟨S1024x2x3, .f32⟩
  | .hbm, ⟨4, _⟩ => ⟨S16384x1024x1x1, .f32⟩
  | .hbm, ⟨5, _⟩ => ⟨S1x1024x2x3, .f32⟩
  | .hbm, ⟨6, _⟩ => ⟨S16384x1024x2x3, .f32⟩
  | .hbm, ⟨7, _⟩ => ⟨S16384x1024x2x3, .f32⟩
  | .hbm, ⟨8, _⟩ => ⟨S16384x1024x2x3, .f32⟩
  | .hbm, ⟨9, _⟩ => ⟨S1x1024x2x3, .f32⟩
  | .hbm, ⟨10, _⟩ => ⟨S16384x1024x2x3, .f32⟩
  | .hbm, ⟨11, _⟩ => ⟨S16384x1024x2x3, .f32⟩
  | .hbm, ⟨12, _⟩ => ⟨S_, .f32⟩
  | .hbm, ⟨13, _⟩ => ⟨S16384x1024x2, .f32⟩
  | .hbm, ⟨14, _⟩ => ⟨S_, .f32⟩
  | .hbm, ⟨15, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S16384x1024_S16384x1024x1x1_0_1 : S16384x1024.BroadcastsInDim S16384x1024x1x1 (![0, 1] : Fin 2 → Fin S16384x1024x1x1.rank)
  bcast_S1024x2x3_S1x1024x2x3_1_2_3 : S1024x2x3.BroadcastsInDim S1x1024x2x3 (![1, 2, 3] : Fin 3 → Fin S1x1024x2x3.rank)
  bcast_S16384x1024x1x1_S16384x1024x2x3_0_1_2_3 : S16384x1024x1x1.BroadcastsInDim S16384x1024x2x3 (![0, 1, 2, 3] : Fin 4 → Fin S16384x1024x2x3.rank)
  bcast_S1x1024x2x3_S16384x1024x2x3_0_1_2_3 : S1x1024x2x3.BroadcastsInDim S16384x1024x2x3 (![0, 1, 2, 3] : Fin 4 → Fin S16384x1024x2x3.rank)
  reducesTo_S16384x1024x2x3_S16384x1024x2_d3 : S16384x1024x2x3.ReducesTo [3] S16384x1024x2
  h_S_ : 0 < S_.numel
  reducesTo_S16384x1024x2_S16384x1024_d2 : S16384x1024x2.ReducesTo [2] S16384x1024

variable [Facts₀]

class Facts : Prop extends Facts₀ where

variable [Facts]
-- ==== Proof.Spec.lean ====
/-
  The virtual value, stated once over the argument arrays.

  For a bid `x = bids[b, n]` of buyer `n` and the buyer's six parameter pairs `(w[n, k, j], β[n, k, j])`, `k < 2`, `j < 3`,
  the affine pieces are `x · e^{w[n, k, j]} + β[n, k, j]`; the virtual value is the minimum over `k` of the maximum
  over `j` of the pieces. On the extended reals `max` from `−∞` over three values and `min` from `+∞` over two are
  the plain nested `max` and `min`, so the function is written with them; the two small fold lemmas say so.
-/
import Idealize.ShloMosaic.PureOps.Ideal
import Idealize.ShloMosaic.Lib.ValueIdx

noncomputable section

namespace Cert.VirtualValue

open Idealize.ShloMosaic Idealize.ShloMosaic.ValueIdx

/-- The bids, one row per auction and one column per buyer. -/
abbrev Bids : Type := FVec Ideal ⟨2, ![16384, 1024]⟩ .f32
/-- A buyer's parameters: buyer, group `k`, member `j`. -/
abbrev Params : Type := FVec Ideal ⟨3, ![1024, 2, 3]⟩ .f32

/-- The affine piece `(k, j)` of buyer `n` at the bid of row `b`: `bids[b, n] · e^{w[n, k, j]} + β[n, k, j]`. -/
def piece (bids : Bids) (w beta : Params) (b : Fin 16384) (n : Fin 1024) (k : Fin 2) (j : Fin 3) : EReal :=
  bids (ix2 b n) * Ideal.exp (w (ix3 n k j)) + beta (ix3 n k j)

/-- The larger of the three pieces of group `k`. -/
def groupMax (bids : Bids) (w beta : Params) (b : Fin 16384) (n : Fin 1024) (k : Fin 2) : EReal :=
  max (max (piece bids w beta b n k 0) (piece bids w beta b n k 1)) (piece bids w beta b n k 2)

/-- The virtual value at `(b, n)`: the smaller of the two groups' maxima. -/
def value (bids : Bids) (w beta : Params) : Bids := fun i =>
  min (groupMax bids w beta (i 0) (i 1) 0) (groupMax bids w beta (i 0) (i 1) 1)

theorem value_ix2 (bids : Bids) (w beta : Params) (b : Fin 16384) (n : Fin 1024) :
    value bids w beta (ix2 b n) = min (groupMax bids w beta b n 0) (groupMax bids w beta b n 1) := rfl

/-- A maximum folded from `−∞` over three values is the nested maximum. -/
theorem fold_max_three (f : Fin 3 → EReal) :
    (Finset.univ : Finset (Fin 3)).fold max ⊥ f = max (max (f 0) (f 1)) (f 2) := by
  have h : (Finset.univ : Finset (Fin 3)) = insert 0 (insert 1 {2}) := by decide
  rw [h, Finset.fold_insert (by decide), Finset.fold_insert (by decide), Finset.fold_singleton, max_bot_right, max_assoc]

/-- A minimum folded from `+∞` over two values is their minimum. -/
theorem fold_min_two (f : Fin 2 → EReal) :
    (Finset.univ : Finset (Fin 2)).fold min ⊤ f = min (f 0) (f 1) := by
  have h : (Finset.univ : Finset (Fin 2)) = insert 0 {1} := by decide
  rw [h, Finset.fold_insert (by decide), Finset.fold_singleton, min_top_right]

/-- The f32 pattern of `−∞` is the bottom of the extended reals, and that of `+∞` the top. -/
theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

end Cert.VirtualValue

end
-- ==== Proof.RefValue.lean ====
/-
  The reference computes the virtual value.

  The reference broadcasts the bids over the parameter axes and the parameters over the rows, forms every affine piece
  `bids[b, n] · e^{w[n, k, j]} + β[n, k, j]` at `(b, n, k, j)`, takes the maximum over the last axis from `−∞` and then the
  minimum over the new last axis from `+∞`. Read at an index: the piece at `(b, n, k, j)` is the specification's piece;
  a reduce over one axis is the fold over that axis's coordinates, which over three (two) values is the nested maximum
  (the minimum).
-/
import proofs.«119895_j16063177687585_1_alg».proof.Proof.Gen.ReferenceIdeal.Read
import proofs.«119895_j16063177687585_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.VirtualValue

/-- The summed-up term of the reference at `(b, n, k, j)` is the affine piece `(k, j)` of buyer `n` at row `b`'s bid:
    the broadcasts read the bids at `(b, n)` and both parameter arrays at `(n, k, j)`. -/
theorem piece_eq (x0 : Bids) (x1 x2 : Params) (b : Fin 16384) (n : Fin 1024) (k : Fin 2) (j : Fin 3) :
    val_main_v8 (F := Ideal) x0 x1 x2 (ix4 b n k j) = piece x0 x1 x2 b n k j := by
  have e1 : idx_main_v1 (idx_main_v3 (ix4 b n k j)) = ix2 b n :=
    funext fun a => Fin.ext (by match a with | ⟨0, _⟩ => rfl | ⟨1, _⟩ => rfl)
  have e2 : idx_main_v2 (idx_main_v4 (ix4 b n k j)) = ix3 n k j :=
    funext fun a => Fin.ext (by match a with | ⟨0, _⟩ => rfl | ⟨1, _⟩ => rfl | ⟨2, _⟩ => rfl)
  have e3 : idx_main_v6 (idx_main_v7 (ix4 b n k j)) = ix3 n k j :=
    funext fun a => Fin.ext (by match a with | ⟨0, _⟩ => rfl | ⟨1, _⟩ => rfl | ⟨2, _⟩ => rfl)
  rw [val_main_v8_apply, val_main_v5_apply, val_main_v3_apply, val_main_v1_apply, val_main_v4_apply, val_main_v2_apply,
    val_main_v0_apply, val_main_v7_apply, val_main_v6_apply, e1, e2, e3]
  rfl

/-- Over `(b, n, k)`, the source index with `j` put back on the last axis is `(b, n, k, j)`. -/
theorem lift_last (h : S16384x1024x2x3.Reduces [3] S16384x1024x2) (b : Fin 16384) (n : Fin 1024) (k : Fin 2) (j : Fin 3) :
    h.lift (ix3 b n k) j = ix4 b n k j := by
  funext c; apply Fin.ext
  fin_cases c <;> rfl

/-- Over `(b, n)`, the source index with `k` put back on the last axis is `(b, n, k)`. -/
theorem lift_group (h : S16384x1024x2.Reduces [2] S16384x1024) (b : Fin 16384) (n : Fin 1024) (k : Fin 2) :
    h.lift (ix2 b n) k = ix3 b n k := by
  funext c; apply Fin.ext
  fin_cases c <;> rfl

/-- The maximum over `j` from `−∞`, at `(b, n, k)`, is the larger of group `k`'s three pieces. -/
theorem groupMax_eq (x0 : Bids) (x1 x2 : Params) (b : Fin 16384) (n : Fin 1024) (k : Fin 2) :
    val_main_v9 (F := Ideal) x0 x1 x2 (ix3 b n k) = groupMax x0 x1 x2 b n k := by
  have h : S16384x1024x2x3.Reduces [3] S16384x1024x2 := by decide
  unfold val_main_v9
  rw [Host.reduce_eq_fold_single (FloatOps.maximumf (F := Ideal) (φ := .f32)) _ _ _ h h_S_]
  have hf : (val_main_v8 (F := Ideal) x0 x1 x2 ∘ h.lift (ix3 b n k)) = fun j : Fin 3 => piece x0 x1 x2 b n k j :=
    funext fun j => (congrArg (val_main_v8 (F := Ideal) x0 x1 x2) (lift_last h b n k j)).trans (piece_eq x0 x1 x2 b n k j)
  rw [hf, val_main_cst_apply]
  show Finset.fold max (Ideal.ofBits .f32 0xFF800000#32) (fun j : Fin 3 => piece x0 x1 x2 b n k j) (Finset.univ : Finset (Fin 3)) = _
  rw [ofBits_negInf, fold_max_three]
  rfl

/-- The reference's result is the virtual value of its arguments. -/
theorem result_eq (x0 : Bids) (x1 x2 : Params) :
    val_main_v10 (F := Ideal) x0 x1 x2 = value x0 x1 x2 := by
  funext i
  obtain ⟨b, n, rfl⟩ : ∃ (b : Fin 16384) (n : Fin 1024), i = ix2 b n := ⟨i 0, i 1, eq_ix2 i⟩
  have h : S16384x1024x2.Reduces [2] S16384x1024 := by decide
  unfold val_main_v10
  rw [Host.reduce_eq_fold_single (FloatOps.minimumf (F := Ideal) (φ := .f32)) _ _ _ h h_S_]
  have hf : (val_main_v9 (F := Ideal) x0 x1 x2 ∘ h.lift (ix2 b n)) = fun k : Fin 2 => groupMax x0 x1 x2 b n k := by
    funext k
    rw [Function.comp_apply, lift_group h b n k]
    exact groupMax_eq x0 x1 x2 b n k
  rw [hf, val_main_cst_0_apply]
  show Finset.fold min (Ideal.ofBits .f32 0x7F800000#32) (fun k : Fin 2 => groupMax x0 x1 x2 b n k) (Finset.univ : Finset (Fin 2)) = _
  rw [ofBits_posInf, fold_min_two]
  rfl

end Cert.ReferenceIdeal.RefValue

end
-- ==== Proof.KernelBlock.lean ====
/-
  What one grid point of the kernel writes back is a block of the virtual value.

  Grid point `t` stages rows `1024·t … 1024·t + 1023` of the bids, and the two parameter arrays whole, re-laid by the
  host as `6 × 1024` matrices whose row `3·k + j` holds `w[·, k, j]` (a transpose to `[k, j, n]` and a reshape that merges
  the first two axes). The body forms the six affine pieces row by row, the maxima of rows `0–2` and of rows `3–5`, and
  their minimum. So the block it leaves, at block index `(p, q)`, is the virtual value at `(1024·t + p, q)`.
-/
import proofs.«119895_j16063177687585_1_alg».proof.Proof.Gen.KernelIdeal.Value
import proofs.«119895_j16063177687585_1_alg».proof.Proof.Spec
import Idealize.ShloMosaic.Lib.Pipeline.Value
import Idealize.ShloMosaic.Lib.ValueIdx
import Idealize.ShloMosaic.Lib.StableHlo.Run

noncomputable section

namespace Cert.KernelIdeal.Block

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.VirtualValue
open Idealize.ShloMosaic.Pipeline (Dat)

/-! ## The block's entry, over arbitrary loaded blocks -/

/-- If the loaded bid block at `y`'s coordinates is the bid at `(b, n)`, and rows `3·k + j` of the two loaded parameter
    matrices at `y`'s column are `w[n, k, j]` and `β[n, k, j]`, then what the body's stores leave at `y` is the virtual
    value at `(b, n)`. -/
theorem entry_eq (P0 : Vec Ideal S1024x1024 .f32) (P1 P2 : Vec Ideal S6x1024 .f32) (bids : Bids) (w beta : Params)
    (y : S1024x1024.Idx) (b : Fin 16384) (n : Fin 1024)
    (h0 : ∀ z : S1024x1024.Idx, (z 0).val = (y 0).val → (z 1).val = (y 1).val → P0 z = bids (ix2 b n))
    (h1 : ∀ (z : S6x1024.Idx) (k : Fin 2) (j : Fin 3), (z 0).val = 3 * k.val + j.val → (z 1).val = (y 1).val →
      P1 z = w (ix3 n k j))
    (h2 : ∀ (z : S6x1024.Idx) (k : Fin 2) (j : Fin 3), (z 0).val = 3 * k.val + j.val → (z 1).val = (y 1).val →
      P2 z = beta (ix3 n k j)) :
    E3 P0 P1 P2 y = value bids w beta (ix2 b n) := by
  show min (max (max (P0 (ix3_0 y) * Ideal.exp (P1 (ix3_1 y)) + P2 (ix3_2 y))
        (P0 (ix3_3 y) * Ideal.exp (P1 (ix3_4 y)) + P2 (ix3_5 y)))
        (P0 (ix3_6 y) * Ideal.exp (P1 (ix3_7 y)) + P2 (ix3_8 y)))
      (max (max (P0 (ix3_9 y) * Ideal.exp (P1 (ix3_10 y)) + P2 (ix3_11 y))
        (P0 (ix3_12 y) * Ideal.exp (P1 (ix3_13 y)) + P2 (ix3_14 y)))
        (P0 (ix3_15 y) * Ideal.exp (P1 (ix3_16 y)) + P2 (ix3_17 y))) = _
  -- the six reads of the bid block are one read (the same index, spelt six times)
  rw [h0 (ix3_0 y) rfl rfl, h1 (ix3_1 y) 0 0 rfl rfl, h2 (ix3_2 y) 0 0 rfl rfl,
    h1 (ix3_4 y) 0 1 rfl rfl, h2 (ix3_5 y) 0 1 rfl rfl,
    h1 (ix3_7 y) 0 2 rfl rfl, h2 (ix3_8 y) 0 2 rfl rfl,
    h1 (ix3_10 y) 1 0 rfl rfl, h2 (ix3_11 y) 1 0 rfl rfl,
    h1 (ix3_13 y) 1 1 rfl rfl, h2 (ix3_14 y) 1 1 rfl rfl,
    h1 (ix3_16 y) 1 2 rfl rfl, h2 (ix3_17 y) 1 2 rfl rfl]
  rfl

/-! ## The host's re-laying of a parameter array -/

/-- Row `3·k + j`, column `q` of the re-laid `6 × 1024` matrix is entry `(q, k, j)` of the parameter array. -/
theorem relaid_apply (x : Params) (z : S6x1024.Idx) (q : Fin 1024) (k : Fin 2) (j : Fin 3)
    (hz0 : (z 0).val = 3 * k.val + j.val) (hz1 : (z 1).val = q.val) :
    shapeCast S6x1024 (transpose S2x3x1024 [1, 2, 0] x transposes_S1024x2x3_S2x3x1024_1_2_0) shapeCasts_S2x3x1024_S6x1024 z
      = x (ix3 q k j) := by
  refine (shapeCast_apply _ _ z (ix3 k j q : S2x3x1024.Idx) ?_).trans ?_
  · rw [Shape.rowMajor_val_three, Shape.rowMajor_val_two]
    show (k.val * 3 + j.val) * 1024 + q.val = (z 0).val * 1024 + (z 1).val
    rw [hz0, hz1]; omega
  · exact transpose_apply _ _ _ (ix3 k j q : S2x3x1024.Idx) (ix3 q k j : S1024x2x3.Idx)
      (fun b => match b with | ⟨0, _⟩ => rfl | ⟨1, _⟩ => rfl | ⟨2, _⟩ => rfl)

variable (m : (ℓ : Loc nD τ sig) → Buf (Elt Ideal) ℓ)

/-- The first re-laid matrix as the region finds it: the transpose and reshape of `w`. -/
theorem relaid_w (c : Dev nD) : (V m c main_v1 : S6x1024.Idx → EReal)
    = shapeCast S6x1024 (transpose S2x3x1024 [1, 2, 0] (m ((c : Thread nD τ).loc main_arg1)) transposes_S1024x2x3_S2x3x1024_1_2_0) shapeCasts_S2x3x1024_S6x1024 := by
  dsimp only [Gen.V, Gen.hostOps0]; after_results; rfl

/-- The second re-laid matrix as the region finds it: the transpose and reshape of `β`. -/
theorem relaid_beta (c : Dev nD) : (V m c main_v3 : S6x1024.Idx → EReal)
    = shapeCast S6x1024 (transpose S2x3x1024 [1, 2, 0] (m ((c : Thread nD τ).loc main_arg2)) transposes_S1024x2x3_S2x3x1024_1_2_0) shapeCasts_S2x3x1024_S6x1024 := by
  dsimp only [Gen.V, Gen.hostOps0]; after_results; rfl

/-! ## The index maps over the grid -/

/-- The bids' window moves with the output's (block row `t`, block column `0`); the parameter windows stay at block
    `(0, 0)`. Decided over the sixteen grid points. -/
theorem index_facts : ∀ t : Fin cfg0.N, win0_0.index t (0 : Fin 2) = win0_3.index t (0 : Fin 2)
    ∧ win0_0.index t (1 : Fin 2) = win0_3.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem zero_offsets : (![0, 0] : Fin 2 → Nat) = fun _ => 0 := funext fun a => by fin_cases a <;> rfl

/-- WHAT POINT `t` WRITES BACK is block `t` of the virtual value of the argument arrays. -/
theorem flushed_eq (c : Dev nD) (t : Fin cfg0.N) :
    (dats m 0 c).flushed 3 t = ((cfg0.win 3).blk t).view.read (Elt Ideal)
      (value (m ((c : Thread nD τ).loc main_arg0)) (m ((c : Thread nD τ).loc main_arg1)) (m ((c : Thread nD τ).loc main_arg2))) := by
  rw [Value.flushed3]
  obtain ⟨e00, e01, e10, e11, e20, e21, e30, e31⟩ := index_facts t
  funext y
  show out0_3 (iblk m c 0 t) (iblk m c 1 t) (iblk m c 2 t) y = value _ _ _ (((cfg0.win 3).blk t).view.emb y)
  unfold out0_3
  rw [Value.canon3_eq]
  simp only [View.ld_unit_zero (S := S1024x1024) zero_offsets, View.ld_unit_zero (S := S6x1024) zero_offsets]
  have hy0 : (y 0).val < 1024 := (y 0).isLt
  have hy1 : (y 1).val < 1024 := (y 1).isLt
  have ht : t.val < 16 := t.isLt
  -- the array index under block index `y` of point `t`: row `1024·t + y₀`, column `y₁`
  have hemb : ((cfg0.win 3).blk t).view.emb y
      = ix2 (⟨t.val * 1024 + (y 0).val, by omega⟩ : Fin 16384) (⟨(y 1).val, hy1⟩ : Fin 1024) := by
    funext a; apply Fin.ext
    match a with
    | ⟨0, _⟩ => show win0_3.index t (0 : Fin 2) * 1024 + 1 * (y 0).val = t.val * 1024 + (y 0).val; omega
    | ⟨1, _⟩ => show win0_3.index t (1 : Fin 2) * 1024 + 1 * (y 1).val = (y 1).val; omega
  rw [hemb]
  refine entry_eq (iblk m c 0 t) (iblk m c 1 t) (iblk m c 2 t) _ _ _ y _ _ ?_ ?_ ?_
  · intro z hz0 hz1
    show V m c main_arg0 (((cfg0.win 0).blk t).view.emb z) = _
    rw [V_main_arg0]
    refine congrArg _ (funext fun a => Fin.ext ?_)
    match a with
    | ⟨0, _⟩ => show win0_0.index t (0 : Fin 2) * 1024 + 1 * (z 0).val = t.val * 1024 + (y 0).val; omega
    | ⟨1, _⟩ => show win0_0.index t (1 : Fin 2) * 1024 + 1 * (z 1).val = (y 1).val; omega
  · intro z k j hz0 hz1
    show V m c main_v1 (((cfg0.win 1).blk t).view.emb z) = _
    rw [relaid_w]
    refine relaid_apply _ _ _ k j ?_ ?_
    · show win0_1.index t (0 : Fin 2) * 6 + 1 * (z 0).val = _; omega
    · show win0_1.index t (1 : Fin 2) * 1024 + 1 * (z 1).val = (y 1).val; omega
  · intro z k j hz0 hz1
    show V m c main_v3 (((cfg0.win 2).blk t).view.emb z) = _
    rw [relaid_beta]
    refine relaid_apply _ _ _ k j ?_ ?_
    · show win0_2.index t (0 : Fin 2) * 6 + 1 * (z 0).val = _; omega
    · show win0_2.index t (1 : Fin 2) * 1024 + 1 * (z 1).val = (y 1).val; omega

end Cert.KernelIdeal.Block

end
-- ==== Proof.KernelValue.lean ====
/-
  The kernel's result array is the virtual value of its arguments.

  Each of the sixteen grid points writes back one block of 1024 rows (all 1024 columns); row `r` lies in the block of
  point `r / 1024`, so the blocks cover the array, and since each is the matching block of the virtual value, the
  array after the run is the virtual value everywhere.
-/
import proofs.«119895_j16063177687585_1_alg».proof.Proof.KernelBlock

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem
open Idealize.ShloMosaic.ValueIdx Cert.VirtualValue
open Idealize.ShloMosaic.Pipeline (Dat)

variable (m : (ℓ : Loc nD τ sig) → Buf (Elt Ideal) ℓ) (ρ : Dev nD → PrngReg)

/-- An index of the result array is in point `t`'s block iff each coordinate is in the block's range on its axis. -/
theorem mem_block (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the result array is in the block of the point its row falls to. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hlt : (i 0).val / 1024 < 16 := by omega
  obtain ⟨-, -, -, -, -, -, e30, e31⟩ := index_facts (⟨(i 0).val / 1024, hlt⟩ : Fin cfg0.N)
  have e30' : win0_3.index (⟨(i 0).val / 1024, hlt⟩ : Fin cfg0.N) (0 : Fin 2) = (i 0).val / 1024 := e30
  refine ⟨⟨(i 0).val / 1024, hlt⟩, flush0_3 _, ?_⟩
  rw [mem_block]
  intro a
  match a with
  | ⟨0, _⟩ =>
    show win0_3.index (⟨(i 0).val / 1024, hlt⟩ : Fin cfg0.N) (0 : Fin 2) * 1024 ≤ (i 0).val
      ∧ (i 0).val < win0_3.index (⟨(i 0).val / 1024, hlt⟩ : Fin cfg0.N) (0 : Fin 2) * 1024 + 1024
    omega
  | ⟨1, _⟩ =>
    show win0_3.index (⟨(i 0).val / 1024, hlt⟩ : Fin cfg0.N) (1 : Fin 2) * 1024 ≤ (i 1).val
      ∧ (i 1).val < win0_3.index (⟨(i 0).val / 1024, hlt⟩ : Fin cfg0.N) (1 : Fin 2) * 1024 + 1024
    omega

/-- THE RESULT ARRAY after the run is the virtual value of the argument arrays. -/
theorem final (c : Dev nD) : (dats m 0 c).arrAt 3 cfg0.N
    = value (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run re-posted: the result array at the virtual value of the arguments, the arguments unchanged. -/
theorem run : θ_run defs (onTc (τ := τ) (main (F := Ideal))) ⟨m, fun _ => 0, ρ⟩ fun r => ∀ c : Dev nD,
      r.2.mem ((c : Thread nD τ).loc main_v4)
        = value (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The virtual-value kernel against its jnp reference, over the extended reals.

  Both programs compute, for every auction row `b` and buyer `n`,
      min over k < 2 of max over j < 3 of  bids[b, n] · e^{w[n, k, j]} + β[n, k, j].
  The reference broadcasts everything to `[B, N, 2, 3]`, and reduces the last axis by a maximum from `−∞` and then the
  next by a minimum from `+∞`. The kernel re-lays the parameters on the host as `6 × 1024` matrices (row `3·k + j`),
  walks the rows in sixteen blocks of 1024, and in each block forms the six pieces as whole tiles, combining them with
  elementwise `max` and `min` and no initial value. On the extended reals `max(−∞, x) = x` and `min(+∞, x) = x`, and
  the kernel's `exp` and the host's are one function, so the two results are the same function of the arguments —
  `Cert.VirtualValue.value` — index by index; no finiteness of the inputs is used.

  Proof/Spec.lean states that function; Proof/RefValue.lean reads the reference's run as it; Proof/KernelBlock.lean reads
  what one grid point writes back as a block of it; Proof/KernelValue.lean covers the array with the blocks. The
  idealization rewrote nothing, so `preserves` is trivial; the three frames are the programs' runs with the value dropped.
-/
import proofs.«119895_j16063177687585_1_alg».proof.Defs
import proofs.«119895_j16063177687585_1_alg».proof.Proof.Gen.Kernel
import proofs.«119895_j16063177687585_1_alg».proof.Proof.Gen.Kernel.Skeleton
import proofs.«119895_j16063177687585_1_alg».proof.Proof.Gen.Kernel.Launch
import proofs.«119895_j16063177687585_1_alg».proof.Proof.Gen.Kernel.Points
import proofs.«119895_j16063177687585_1_alg».proof.Proof.Gen.Kernel.Frame
import proofs.«119895_j16063177687585_1_alg».proof.Proof.Gen.KernelIdeal
import proofs.«119895_j16063177687585_1_alg».proof.Proof.Gen.KernelIdeal.Skeleton
import proofs.«119895_j16063177687585_1_alg».proof.Proof.Gen.KernelIdeal.Launch
import proofs.«119895_j16063177687585_1_alg».proof.Proof.Gen.KernelIdeal.Points
import proofs.«119895_j16063177687585_1_alg».proof.Proof.Gen.KernelIdeal.Frame
import proofs.«119895_j16063177687585_1_alg».proof.Proof.Gen.ReferenceIdeal
import proofs.«119895_j16063177687585_1_alg».proof.Proof.Gen.Pre_finite_inputs
import proofs.«119895_j16063177687585_1_alg».proof.Proof.Gen.KernelIdeal.Value
import proofs.«119895_j16063177687585_1_alg».proof.Proof.Gen.ReferenceIdeal.Run
import proofs.«119895_j16063177687585_1_alg».proof.Proof.Gen.ReferenceIdeal.Read
import proofs.«119895_j16063177687585_1_alg».proof.Proof.RefValue
import proofs.«119895_j16063177687585_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From memories that agree on the arguments, both programs end with the virtual value of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
